-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x32 : Shape := ⟨2, ![262144, 32]⟩
abbrev S27x32x32 : Shape := ⟨3, ![27, 32, 32]⟩
abbrev S27x131072 : Shape := ⟨2, ![27, 131072]⟩
abbrev S_ : Shape := ⟨0, ![]⟩

class Facts : Prop where
  bcast_S_S262144x32 : S_.BroadcastsInDim S262144x32 (![] : Fin 0 → Fin S262144x32.rank)
  reducesTo_S262144x32_S_d0_1 : S262144x32.ReducesTo [0, 1] S_
  h_S_ : 0 < S_.numel
  bcast_S_S27x32x32 : S_.BroadcastsInDim S27x32x32 (![] : Fin 0 → Fin S27x32x32.rank)
  reducesTo_S27x32x32_S_d0_1_2 : S27x32x32.ReducesTo [0, 1, 2] S_

variable [Facts]

def fn {F : FTy → Type} [FloatOps F] (main_arg0 : FVec F S262144x32 .f32) (main_arg1 : FVec F S27x32x32 .f32) (main_arg2 : IVec S27x131072 32) (main_arg3 : IVec S27x131072 32) : IVec S_ 1 :=
  let main_v0 : FVec F S262144x32 .f32 := Host.absf main_arg0
  let main_cst : FVec F S_ .f32 := constant S_ .f32 0x7F800000#32
  let main_v1 : FVec F S262144x32 .f32 := broadcastInDim S262144x32 ![] bcast_S_S262144x32 main_cst
  let main_v2 : IVec S262144x32 1 := cmpf .olt main_v0 main_v1
  let main_c : IVec S_ 1 := constantI S_ 1 1#1
  let main_v3 : IVec S_ 1 := (fun x v => Host.reduce IntOp.andi x v reducesTo_S262144x32_S_d0_1 h_S_) main_v2 main_c
  let main_v4 : FVec F S27x32x32 .f32 := Host.absf main_arg1
  let main_cst_0 : FVec F S_ .f32 := constant S_ .f32 0x7F800000#32
  let main_v5 : FVec F S27x32x32 .f32 := broadcastInDim S27x32x32 ![] bcast_S_S27x32x32 main_cst_0
  let main_v6 : IVec S27x32x32 1 := cmpf .olt main_v4 main_v5
  let main_c_1 : IVec S_ 1 := constantI S_ 1 1#1
  let main_v7 : IVec S_ 1 := (fun x v => Host.reduce IntOp.andi x v reducesTo_S27x32x32_S_d0_1_2 h_S_) main_v6 main_c_1
  let main_v8 : IVec S_ 1 := andi main_v3 main_v7
  main_v8
-- ==== Kernel.lean ====
abbrev S262144x32 : Shape := ⟨2, ![262144, 32]⟩
abbrev S27x32x32 : Shape := ⟨3, ![27, 32, 32]⟩
abbrev S27x131072 : Shape := ⟨2, ![27, 131072]⟩
abbrev S_ : Shape := ⟨0, ![]⟩
abbrev S27x131072x1 : Shape := ⟨3, ![27, 131072, 1]⟩
abbrev S27x131072x32 : Shape := ⟨3, ![27, 131072, 32]⟩
abbrev S1x4096x32 : Shape := ⟨3, ![1, 4096, 32]⟩
abbrev S1x32x32 : Shape := ⟨3, ![1, 32, 32]⟩
abbrev S4096x32 : Shape := ⟨2, ![4096, 32]⟩
abbrev S32x32 : Shape := ⟨2, ![32, 32]⟩
abbrev S3538944 : Shape := ⟨1, ![3538944]⟩
abbrev S3538944x32 : Shape := ⟨2, ![3538944, 32]⟩
abbrev S3538944x1 : Shape := ⟨2, ![3538944, 1]⟩

abbrev nBuf : Space → Nat
  | .hbm => 27
  | .vmem => 6
  | .smem => 0
  | _ => 0

abbrev bufTy : (tb : Table) → Fin (tcTables nBuf tb) → BufTy
  | .hbm, ⟨0, _⟩ => ⟨S262144x32, .f32⟩
  | .hbm, ⟨1, _⟩ => ⟨S27x32x32, .f32⟩
  | .hbm, ⟨2, _⟩ => ⟨S27x131072, .i32⟩
  | .hbm, ⟨3, _⟩ => ⟨S27x131072, .i32⟩
  | .hbm, ⟨4, _⟩ => ⟨S_, .i32⟩
  | .hbm, ⟨5, _⟩ => ⟨S27x131072, .i32⟩
  | .hbm, ⟨6, _⟩ => ⟨S27x131072, .i1⟩
  | .hbm, ⟨7, _⟩ => ⟨S_, .i32⟩
  | .hbm, ⟨8, _⟩ => ⟨S27x131072, .i32⟩
  | .hbm, ⟨9, _⟩ => ⟨S27x131072, .i32⟩
  | .hbm, ⟨10, _⟩ => ⟨S27x131072, .i32⟩
  | .hbm, ⟨11, _⟩ => ⟨S27x131072x1, .i32⟩
  | .hbm, ⟨12, _⟩ => ⟨S27x131072x32, .f32⟩
  | .hbm, ⟨13, _⟩ => ⟨S27x131072x32, .f32⟩
  | .hbm, ⟨14, _⟩ => ⟨S_, .f32⟩
  | .hbm, ⟨15, _⟩ => ⟨S262144x32, .f32⟩
  | .hbm, ⟨16, _⟩ => ⟨S3538944, .i32⟩
  | .hbm, ⟨17, _⟩ => ⟨S3538944x32, .f32⟩
  | .hbm, ⟨18, _⟩ => ⟨S_, .i32⟩
  | .hbm, ⟨19, _⟩ => ⟨S3538944, .i32⟩
  | .hbm, ⟨20, _⟩ => ⟨S3538944, .i1⟩
  | .hbm, ⟨21, _⟩ => ⟨S_, .i32⟩
  | .hbm, ⟨22, _⟩ => ⟨S3538944, .i32⟩
  | .hbm, ⟨23, _⟩ => ⟨S3538944, .i32⟩
  | .hbm, ⟨24, _⟩ => ⟨S3538944, .i32⟩
  | .hbm, ⟨25, _⟩ => ⟨S3538944x1, .i32⟩
  | .hbm, ⟨26, _⟩ => ⟨S262144x32, .f32⟩
  | .local _ .vmem, ⟨0, _⟩ => ⟨S1x4096x32, .f32⟩
  | .local _ .vmem, ⟨1, _⟩ => ⟨S1x4096x32, .f32⟩
  | .local _ .vmem, ⟨2, _⟩ => ⟨S1x32x32, .f32⟩
  | .local _ .vmem, ⟨3, _⟩ => ⟨S1x32x32, .f32⟩
  | .local _ .vmem, ⟨4, _⟩ => ⟨S1x4096x32, .f32⟩
  | .local _ .vmem, ⟨5, _⟩ => ⟨S1x4096x32, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![27, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S27x131072 : S_.BroadcastsInDim S27x131072 (![] : Fin 0 → Fin S27x131072.rank)
  bcast_S27x131072_S27x131072x1_0_1 : S27x131072.BroadcastsInDim S27x131072x1 (![0, 1] : Fin 2 → Fin S27x131072x1.rank)
  inb_S1x4096x32_S1x4096x32_0_0_0 : ∀ a, (![0, 0, 0] : Fin 3 → Nat) a + S1x4096x32.size a ≤ S1x4096x32.size a
  h_S1x4096x32 : 0 < S1x4096x32.numel
  shapeCasts_S1x4096x32_S4096x32 : S1x4096x32.ShapeCasts S4096x32
  bitsLt_bf16_f32 : FTy.bits .bf16 < FTy.bits .f32
  inb_S1x32x32_S1x32x32_0_0_0 : ∀ a, (![0, 0, 0] : Fin 3 → Nat) a + S1x32x32.size a ≤ S1x32x32.size a
  h_S1x32x32 : 0 < S1x32x32.numel
  shapeCasts_S1x32x32_S32x32 : S1x32x32.ShapeCasts S32x32
  shapeCasts_S4096x32_S1x4096x32 : S4096x32.ShapeCasts S1x4096x32
  bcast_S_S262144x32 : S_.BroadcastsInDim S262144x32 (![] : Fin 0 → Fin S262144x32.rank)
  shapeCasts_S27x131072_S3538944 : S27x131072.ShapeCasts S3538944
  shapeCasts_S27x131072x32_S3538944x32 : S27x131072x32.ShapeCasts S3538944x32
  bcast_S_S3538944 : S_.BroadcastsInDim S3538944 (![] : Fin 0 → Fin S3538944.rank)
  bcast_S3538944_S3538944x1_0 : S3538944.BroadcastsInDim S3538944x1 (![0] : Fin 1 → Fin S3538944x1.rank)
  gather_S262144x32_S27x131072x1_S27x131072x32_2_0_n_n_0_2_132_wf : GatherDims.WF S262144x32 S27x131072x1 S27x131072x32 [2] [0] [] [0] [] 2 ![1, 32]
  dot_S4096x32_S32x32_S4096x32_1_0_0_1_n_n_wf : DotDims.WF S4096x32 S32x32 S4096x32 [1] [0] [0] [1] [] []
  scatter_S262144x32_S3538944x1_S3538944x32_1_0_0_1_wf : ScatterDims.WF S262144x32 S3538944x1 S3538944x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x32.size a ≤ S27x131072x32.size a
  hwx0_0 : ∀ i : grid0.Coords, EltTy.bits .f32 = 32 ∨ (Rect.block (s := S27x131072x32) S1x4096x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32.size a ≤ S27x32x32.size a
  hwx0_1 : ∀ i : grid0.Coords, EltTy.bits .f32 = 32 ∨ (Rect.block (s := S27x32x32) S1x32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x32.size a ≤ S27x131072x32.size a
  hwx0_2 : ∀ i : grid0.Coords, EltTy.bits .f32 = 32 ∨ (Rect.block (s := S27x131072x32) S1x4096x32.size (cc0_transform_2 i) (hinb0_2 i)).WholeWords (EltTy.packing .f32)

variable [Facts₀]

def gather_S262144x32_S27x131072x1_S27x131072x32_2_0_n_n_0_2_132 : GatherDims S262144x32 S27x131072x1 S27x131072x32 where
  offsetDims := [2]
  collapsedSliceDims := [0]
  operandBatchingDims := []
  startIndicesBatchingDims := []
  startIndexMap := [0]
  indexVectorDim := 2
  sliceSizes := ![1, 32]
  wf := gather_S262144x32_S27x131072x1_S27x131072x32_2_0_n_n_0_2_132_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def scatter_S262144x32_S3538944x1_S3538944x32_1_0_0_1 : ScatterDims S262144x32 S3538944x1 S3538944x32 where
  updateWindowDims := [1]
  insertedWindowDims := [0]
  scatterDimsToOperandDims := [0]
  indexVectorDim := 1
  wf := scatter_S262144x32_S3538944x1_S3538944x32_1_0_0_1_wf

abbrev win0_0 : Pipeline.Window sig grid0 :=
  Pipeline.Window.ofSpec (Memref.whole main_v6) S1x4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x4096x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x32 : Shape := ⟨2, ![262144, 32]⟩
abbrev S27x32x32 : Shape := ⟨3, ![27, 32, 32]⟩
abbrev S27x131072 : Shape := ⟨2, ![27, 131072]⟩
abbrev S_ : Shape := ⟨0, ![]⟩
abbrev S27x131072x1 : Shape := ⟨3, ![27, 131072, 1]⟩
abbrev S27x131072x32 : Shape := ⟨3, ![27, 131072, 32]⟩
abbrev S3538944 : Shape := ⟨1, ![3538944]⟩
abbrev S3538944x32 : Shape := ⟨2, ![3538944, 32]⟩
abbrev S3538944x1 : Shape := ⟨2, ![3538944, 1]⟩

abbrev nBuf : Space → Nat
  | .hbm => 27
  | .vmem => 0
  | .smem => 0
  | _ => 0

abbrev bufTy : (tb : Table) → Fin (tcTables nBuf tb) → BufTy
  | .hbm, ⟨0, _⟩ => ⟨S262144x32, .f32⟩
  | .hbm, ⟨1, _⟩ => ⟨S27x32x32, .f32⟩
  | .hbm, ⟨2, _⟩ => ⟨S27x131072, .i32⟩
  | .hbm, ⟨3, _⟩ => ⟨S27x131072, .i32⟩
  | .hbm, ⟨4, _⟩ => ⟨S_, .i32⟩
  | .hbm, ⟨5, _⟩ => ⟨S27x131072, .i32⟩
  | .hbm, ⟨6, _⟩ => ⟨S27x131072, .i1⟩
  | .hbm, ⟨7, _⟩ => ⟨S_, .i32⟩
  | .hbm, ⟨8, _⟩ => ⟨S27x131072, .i32⟩
  | .hbm, ⟨9, _⟩ => ⟨S27x131072, .i32⟩
  | .hbm, ⟨10, _⟩ => ⟨S27x131072, .i32⟩
  | .hbm, ⟨11, _⟩ => ⟨S27x131072x1, .i32⟩
  | .hbm, ⟨12, _⟩ => ⟨S27x131072x32, .f32⟩
  | .hbm, ⟨13, _⟩ => ⟨S27x131072x32, .f32⟩
  | .hbm, ⟨14, _⟩ => ⟨S_, .f32⟩
  | .hbm, ⟨15, _⟩ => ⟨S262144x32, .f32⟩
  | .hbm, ⟨16, _⟩ => ⟨S3538944, .i32⟩
  | .hbm, ⟨17, _⟩ => ⟨S3538944x32, .f32⟩
  | .hbm, ⟨18, _⟩ => ⟨S_, .i32⟩
  | .hbm, ⟨19, _⟩ => ⟨S3538944, .i32⟩
  | .hbm, ⟨20, _⟩ => ⟨S3538944, .i1⟩
  | .hbm, ⟨21, _⟩ => ⟨S_, .i32⟩
  | .hbm, ⟨22, _⟩ => ⟨S3538944, .i32⟩
  | .hbm, ⟨23, _⟩ => ⟨S3538944, .i32⟩
  | .hbm, ⟨24, _⟩ => ⟨S3538944, .i32⟩
  | .hbm, ⟨25, _⟩ => ⟨S3538944x1, .i32⟩
  | .hbm, ⟨26, _⟩ => ⟨S262144x32, .f32⟩
  | _, _ => ⟨S262144x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S27x131072 : S_.BroadcastsInDim S27x131072 (![] : Fin 0 → Fin S27x131072.rank)
  bcast_S27x131072_S27x131072x1_0_1 : S27x131072.BroadcastsInDim S27x131072x1 (![0, 1] : Fin 2 → Fin S27x131072x1.rank)
  bcast_S_S262144x32 : S_.BroadcastsInDim S262144x32 (![] : Fin 0 → Fin S262144x32.rank)
  shapeCasts_S27x131072_S3538944 : S27x131072.ShapeCasts S3538944
  shapeCasts_S27x131072x32_S3538944x32 : S27x131072x32.ShapeCasts S3538944x32
  bcast_S_S3538944 : S_.BroadcastsInDim S3538944 (![] : Fin 0 → Fin S3538944.rank)
  bcast_S3538944_S3538944x1_0 : S3538944.BroadcastsInDim S3538944x1 (![0] : Fin 1 → Fin S3538944x1.rank)
  gather_S262144x32_S27x131072x1_S27x131072x32_2_0_n_n_0_2_132_wf : GatherDims.WF S262144x32 S27x131072x1 S27x131072x32 [2] [0] [] [0] [] 2 ![1, 32]
  dot_S27x131072x32_S27x32x32_S27x131072x32_2_1_1_2_0_0_wf : DotDims.WF S27x131072x32 S27x32x32 S27x131072x32 [2] [1] [1] [2] [0] [0]
  scatter_S262144x32_S3538944x1_S3538944x32_1_0_0_1_wf : ScatterDims.WF S262144x32 S3538944x1 S3538944x32 [1] [0] [0] 1

variable [Facts₀]

def gather_S262144x32_S27x131072x1_S27x131072x32_2_0_n_n_0_2_132 : GatherDims S262144x32 S27x131072x1 S27x131072x32 where
  offsetDims := [2]
  collapsedSliceDims := [0]
  operandBatchingDims := []
  startIndicesBatchingDims := []
  startIndexMap := [0]
  indexVectorDim := 2
  sliceSizes := ![1, 32]
  wf := gather_S262144x32_S27x131072x1_S27x131072x32_2_0_n_n_0_2_132_wf
def dot_S27x131072x32_S27x32x32_S27x131072x32_2_1_1_2_0_0 : DotDims S27x131072x32 S27x32x32 S27x131072x32 where
  lhsContracting := [2]
  rhsContracting := [1]
  lhsNonContracting := [1]
  rhsNonContracting := [2]
  lhsBatch := [0]
  rhsBatch := [0]
  wf := dot_S27x131072x32_S27x32x32_S27x131072x32_2_1_1_2_0_0_wf
def scatter_S262144x32_S3538944x1_S3538944x32_1_0_0_1 : ScatterDims S262144x32 S3538944x1 S3538944x32 where
  updateWindowDims := [1]
  insertedWindowDims := [0]
  scatterDimsToOperandDims := [0]
  indexVectorDim := 1
  wf := scatter_S262144x32_S3538944x1_S3538944x32_1_0_0_1_wf

class Facts : Prop extends Facts₀ where

variable [Facts]
-- ==== Proof.OffsetProduct.lean ====
/- The per-offset product of a sparse convolution, as one function of its two operand arrays.

   For each of the 27 kernel offsets `k` and each of the 131072 neighbour pairs `m` of that offset, the
   gathered feature row `g[k, m, ·]` (32 input channels) is multiplied by the offset's 32 × 32 weight
   matrix `w[k, ·, ·]`:

       out[k, m, o] = Σ_i g[k, m, i] · w[k, i, o].

   Over the extended reals the sum is a finite sum in a commutative monoid, so neither the order of
   the 32 terms nor the way the rows are tiled into blocks matters. -/
import Idealize.ShloMosaic.Lib.ValueIdx
import Idealize.ShloMosaic.PureOps.Ideal

noncomputable section

open scoped BigOperators

namespace Cert.SparseConv

open Idealize.ShloMosaic Idealize.ShloMosaic.ValueIdx

/-- The gathered rows and the per-offset contributions: 27 offsets × 131072 pairs × 32 channels. -/
abbrev SRows : Shape := ⟨3, ![27, 131072, 32]⟩
/-- The weights: 27 offsets × 32 input channels × 32 output channels. -/
abbrev SWeights : Shape := ⟨3, ![27, 32, 32]⟩

/-- `out[k, m, o] = Σ_i g[k, m, i] · w[k, i, o]`. -/
def offsetProduct (g : FVec Ideal SRows .f32) (w : FVec Ideal SWeights .f32) : FVec Ideal SRows .f32 :=
  fun j => ∑ i : Fin 32, g (ix3 (j 0) (j 1) i) * w (ix3 (j 0) i (j 2))

theorem offsetProduct_apply (g : FVec Ideal SRows .f32) (w : FVec Ideal SWeights .f32) (k : Fin 27) (r : Fin 131072) (o : Fin 32) :
    offsetProduct g w (ix3 k r o) = ∑ i : Fin 32, g (ix3 k r i) * w (ix3 k i o) := rfl

end Cert.SparseConv

end
-- ==== Proof.Payload.lean ====
/- What the kernel body stores, read at one element of its block.

   The body loads a block of 4096 gathered rows and one offset's weight matrix, drops the unit offset
   axis of both, multiplies them into a zero accumulator and puts the unit axis back. A change of float
   format is the identity on extended reals, so the stored element at row `r` and output channel `o` is
   `Σ_i rows[0, r, i] · weights[0, i, o]`. -/
import proofs.«101304_j82669530514090_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.SparseConv.Body

open Cert.KernelIdeal Cert.KernelIdeal.Gen Idealize.ShloMosaic Idealize.ShloMosaic.ValueIdx

/-- The left factor's row coordinate is the output's row. -/
theorem lhs_row (j : S4096x32.Idx) (q : dot_S4096x32_S32x32_S4096x32_1_0_0_1_n_n.contr.Idx) :
    (dot_S4096x32_S32x32_S4096x32_1_0_0_1_n_n.lhsIdx j q 0).val = (j 0).val := by
  unfold DotDims.lhsIdx
  rw [dif_neg (show ¬(0 : Fin S4096x32.rank) ∈ dot_S4096x32_S32x32_S4096x32_1_0_0_1_n_n.lhsBatch by decide), dif_pos (show (0 : Fin S4096x32.rank) ∈ dot_S4096x32_S32x32_S4096x32_1_0_0_1_n_n.lhsNonContracting by decide)]
  rfl
/-- The left factor's channel coordinate is the contracted one. -/
theorem lhs_chan (j : S4096x32.Idx) (q : dot_S4096x32_S32x32_S4096x32_1_0_0_1_n_n.contr.Idx) :
    (dot_S4096x32_S32x32_S4096x32_1_0_0_1_n_n.lhsIdx j q 1).val = (q ⟨0, by decide⟩).val :=
  dot_S4096x32_S32x32_S4096x32_1_0_0_1_n_n.lhsIdx_val_of_single rfl j q
/-- The right factor's input-channel coordinate is the contracted one. -/
theorem rhs_chan (j : S4096x32.Idx) (q : dot_S4096x32_S32x32_S4096x32_1_0_0_1_n_n.contr.Idx) :
    (dot_S4096x32_S32x32_S4096x32_1_0_0_1_n_n.rhsIdx j q 0).val = (q ⟨0, by decide⟩).val :=
  dot_S4096x32_S32x32_S4096x32_1_0_0_1_n_n.rhsIdx_val_of_single rfl j q
/-- The right factor's output-channel coordinate is the output's. -/
theorem rhs_out (j : S4096x32.Idx) (q : dot_S4096x32_S32x32_S4096x32_1_0_0_1_n_n.contr.Idx) :
    (dot_S4096x32_S32x32_S4096x32_1_0_0_1_n_n.rhsIdx j q 1).val = (j 1).val := by
  unfold DotDims.rhsIdx
  rw [dif_neg (show ¬(1 : Fin S32x32.rank) ∈ dot_S4096x32_S32x32_S4096x32_1_0_0_1_n_n.rhsBatch by decide), dif_pos (show (1 : Fin S32x32.rank) ∈ dot_S4096x32_S32x32_S4096x32_1_0_0_1_n_n.rhsNonContracting by decide)]
  rfl

/-- Dropping the unit offset axis of a block of rows. -/
theorem rows_drop (x0 : Vec Ideal S1x4096x32 .f32) (r : Fin 4096) (i : Fin 32) :
    shapeCast S4096x32 x0 shapeCasts_S1x4096x32_S4096x32 (ix2 r i) = x0 (ix3 (0 : Fin 1) r i) :=
  shapeCast_apply x0 shapeCasts_S1x4096x32_S4096x32 (ix2 r i) (ix3 (0 : Fin 1) r i)
    (by rw [Shape.rowMajor_val_three, Shape.rowMajor_val_two]; show (0 * 4096 + r.val) * 32 + i.val = r.val * 32 + i.val; omega)

/-- Dropping the unit offset axis of a weight matrix. -/
theorem weights_drop (x1 : Vec Ideal S1x32x32 .f32) (i : Fin 32) (o : Fin 32) :
    shapeCast S32x32 x1 shapeCasts_S1x32x32_S32x32 (ix2 i o) = x1 (ix3 (0 : Fin 1) i o) :=
  shapeCast_apply x1 shapeCasts_S1x32x32_S32x32 (ix2 i o) (ix3 (0 : Fin 1) i o)
    (by rw [Shape.rowMajor_val_three, Shape.rowMajor_val_two]; show (0 * 32 + i.val) * 32 + o.val = i.val * 32 + o.val; omega)

/-- The product of a block of rows and a weight matrix into a zero accumulator, at row `r` and output channel `o`. -/
theorem product_apply (a : FVec Ideal S4096x32 .bf16) (b : FVec Ideal S32x32 .bf16) (r : Fin 4096) (o : Fin 32) :
    matmul dot_S4096x32_S32x32_S4096x32_1_0_0_1_n_n none a b (constant S4096x32 .f32 0x00000000#32) (ix2 r o)
      = ∑ i : Fin 32, a (ix2 r i) * b (ix2 i o) := by
  refine (Ideal.matmul_constant_zero_apply dot_S4096x32_S32x32_S4096x32_1_0_0_1_n_n none a b (ix2 r o)).trans ?_
  rw [← Equiv.sum_comp (contrEquiv1 dot_S4096x32_S32x32_S4096x32_1_0_0_1_n_n 32 rfl rfl).symm]
  refine Finset.sum_congr rfl fun i _ => ?_
  have hi := contrEquiv1_symm_val dot_S4096x32_S32x32_S4096x32_1_0_0_1_n_n 32 rfl rfl i
  have el : dot_S4096x32_S32x32_S4096x32_1_0_0_1_n_n.lhsIdx (ix2 r o) ((contrEquiv1 dot_S4096x32_S32x32_S4096x32_1_0_0_1_n_n 32 rfl rfl).symm i) = ix2 r i := funext fun d => Fin.ext (by
    match d with
    | ⟨0, _⟩ => exact lhs_row _ _
    | ⟨1, _⟩ => exact (lhs_chan _ _).trans hi)
  have er : dot_S4096x32_S32x32_S4096x32_1_0_0_1_n_n.rhsIdx (ix2 r o) ((contrEquiv1 dot_S4096x32_S32x32_S4096x32_1_0_0_1_n_n 32 rfl rfl).symm i) = ix2 i o := funext fun d => Fin.ext (by
    match d with
    | ⟨0, _⟩ => exact (rhs_chan _ _).trans hi
    | ⟨1, _⟩ => exact rhs_out _ _)
  rw [el, er]

/-- THE STORED ELEMENT at row `r`, output channel `o` of the block. -/
theorem pay_apply (x0 : Vec Ideal S1x4096x32 .f32) (x1 : Vec Ideal S1x32x32 .f32) (r : Fin 4096) (o : Fin 32) :
    k0_pay1 (F := Ideal) x0 x1 (ix3 (0 : Fin 1) r o) = ∑ i : Fin 32, x0 (ix3 (0 : Fin 1) r i) * x1 (ix3 (0 : Fin 1) i o) := by
  unfold k0_pay1
  refine (shapeCast_apply _ shapeCasts_S4096x32_S1x4096x32 (ix3 (0 : Fin 1) r o) (ix2 r o)
    (by rw [Shape.rowMajor_val_three, Shape.rowMajor_val_two]; show r.val * 32 + o.val = (0 * 4096 + r.val) * 32 + o.val; omega)).trans ?_
  refine (product_apply _ _ r o).trans ?_
  refine Finset.sum_congr rfl fun i _ => ?_
  show shapeCast S4096x32 x0 shapeCasts_S1x4096x32_S4096x32 (ix2 r i) * shapeCast S32x32 x1 shapeCasts_S1x32x32_S32x32 (ix2 i o) = _
  rw [rows_drop, weights_drop]

end Cert.SparseConv.Body

end
-- ==== Proof.KernelValue.lean ====
/- What the kernel's program computes, at the ideal instance.

   The program gathers rows of the feature array, runs the blockwise product over a 27 × 32 grid, and
   scatter-adds the contributions. Grid point `t` handles offset `t / 32` and rows
   `(t % 32) · 4096 … (t % 32) · 4096 + 4095` of that offset: it reads that block of gathered rows and the
   offset's weight matrix, and writes that block of contributions. Each written block is the same block of
   ONE whole-array function, the per-offset product of the gathered rows and the weights, and the 864 blocks
   tile the contribution array; so after the region the array IS that product. The lines after the region
   then scatter-add it exactly as the reference does. -/
import proofs.«101304_j82669530514090_1_alg».proof.Proof.Gen.KernelIdeal.Frame
import proofs.«101304_j82669530514090_1_alg».proof.Proof.OffsetProduct
import proofs.«101304_j82669530514090_1_alg».proof.Proof.Payload
import Idealize.ShloMosaic.Lib.Pipeline.Value
import Idealize.ShloMosaic.Lib.ValueIdx
import Idealize.ShloMosaic.Lib.StableHlo.Run

set_option maxRecDepth 16384

noncomputable section

open scoped BigOperators

namespace Cert.SparseConv.Region

open Cert.KernelIdeal Cert.KernelIdeal.Gen Idealize.ShloMosaic Idealize.ShloMosaic.ValueIdx Idealize.ShloMosaic.TcCoe
open Idealize.SL.Sem
open Idealize.ShloMosaic.Pipeline (Dat Cfg Window)

variable (m : (ℓ : Loc nD τ sig) → Buf (Elt Ideal) ℓ) (ρ : Dev nD → PrngReg)

/-! ## The scatter-add after the product -/

/-- The lines after the product, as one function of the output indices `x3` and the contributions `v`:
    flatten both over (offset, pair), wrap a negative index once by the number of voxels, and add each
    contribution row into the zero array at its index. Both programs end with these same lines. -/
def scatterRows (x3 : (⟨S27x131072, .i32⟩ : BufTy).Contents (Elt Ideal)) (v : (⟨S27x131072x32, .f32⟩ : BufTy).Contents (Elt Ideal)) :
    (⟨S262144x32, .f32⟩ : BufTy).Contents (Elt Ideal) :=
  Host.scatterAdd scatter_S262144x32_S3538944x1_S3538944x32_1_0_0_1
    (broadcastInDim S262144x32 ![] bcast_S_S262144x32 (constant (F := Ideal) S_ .f32 0x00000000#32))
    (broadcastInDim S3538944x1 ![0] bcast_S3538944_S3538944x1_0
      (select (cmpi .slt (shapeCast _ x3 shapeCasts_S27x131072_S3538944) (broadcastInDim S3538944 ![] bcast_S_S3538944 (constantI S_ 32 0#32)))
        (addi (shapeCast _ x3 shapeCasts_S27x131072_S3538944) (broadcastInDim S3538944 ![] bcast_S_S3538944 (constantI S_ 32 262144#32)))
        (shapeCast _ x3 shapeCasts_S27x131072_S3538944)))
    (shapeCast _ v shapeCasts_S27x131072x32_S3538944x32)

/-- The gather before the product, as one function of the features `x0` and the input indices `x2`: a
    negative index wrapped once by the number of voxels, then row `x2[k, m]` of the features. -/
def gatherRows (x0 : (⟨S262144x32, .f32⟩ : BufTy).Contents (Elt Ideal)) (x2 : (⟨S27x131072, .i32⟩ : BufTy).Contents (Elt Ideal)) :
    (⟨S27x131072x32, .f32⟩ : BufTy).Contents (Elt Ideal) :=
  Host.gather gather_S262144x32_S27x131072x1_S27x131072x32_2_0_n_n_0_2_132 x0
    (broadcastInDim S27x131072x1 ![0, 1] bcast_S27x131072_S27x131072x1_0_1
      (select (cmpi .slt x2 (broadcastInDim S27x131072 ![] bcast_S_S27x131072 (constantI S_ 32 0#32)))
        (addi x2 (broadcastInDim S27x131072 ![] bcast_S_S27x131072 (constantI S_ 32 262144#32))) x2))

/-! ## The region's blocks -/

/-- The gathered rows as the region finds them, at their literal type. -/
abbrev rowsIn (c : Dev nD) : FVec Ideal S27x131072x32 .f32 := V m c main_v6
/-- The weights as the region finds them, at their literal type. -/
abbrev weightsIn (c : Dev nD) : FVec Ideal S27x32x32 .f32 := V m c main_arg1

theorem origin_zero : (![0, 0, 0] : Fin 3 → Nat) = fun _ => 0 := funext fun a => by fin_cases a <;> rfl

/-- Point `t`'s block indices: the rows' and the contributions' blocks are (offset `t / 32`, row block
    `t % 32`), the weights' block is the offset's whole matrix. Decided over the 864 points. -/
theorem block_index : ∀ t : Fin cfg0.N,
    win0_2.index t (0 : Fin 3) = t.val / 32 ∧ win0_2.index t (1 : Fin 3) = t.val % 32 ∧ win0_2.index t (2 : Fin 3) = 0
    ∧ win0_0.index t (0 : Fin 3) = t.val / 32 ∧ win0_0.index t (1 : Fin 3) = t.val % 32 ∧ win0_0.index t (2 : Fin 3) = 0
    ∧ win0_1.index t (0 : Fin 3) = t.val / 32 ∧ win0_1.index t (1 : Fin 3) = 0 ∧ win0_1.index t (2 : Fin 3) = 0 :=
  (by decide +kernel : ∀ t : Fin grid0.N, _)

/-- WHAT POINT `t` WRITES BACK is its block of the per-offset product of the gathered rows and the weights as
    the region finds them: element (row `r`, channel `o`) of the block is `Σ_i rows[r, i] · weights[i, o]` over
    the point's input blocks, and those blocks sit in their arrays where the output block sits in its array. -/
theorem flushed_eq (c : Dev nD) (t : Fin cfg0.N) :
    (dats m 0 c).flushed 2 t = ((cfg0.win 2).blk t).view.read (Elt Ideal) (offsetProduct (V m c main_v6) (V m c main_arg1)) := by
  show (cfg0.win 2).cut (grid0.coords t) ((dats m 0 c).after 2 t) = _
  rw [after0_2]
  unfold out0_2
  rw [View.canon_unit_zero origin_zero]
  simp only [View.ld_unit_zero (S := S1x4096x32) origin_zero, View.ld_unit_zero (S := S1x32x32) origin_zero]
  obtain ⟨e0, e1, e2, f0, f1, f2, g0, g1, g2⟩ := block_index t
  funext j
  obtain ⟨a, r, o, rfl⟩ : ∃ (a : Fin 1) (r : Fin 4096) (o : Fin 32), j = ix3 a r o := ⟨j 0, j 1, j 2, eq_ix3 j⟩
  obtain rfl : a = 0 := Subsingleton.elim _ _
  show k0_pay1 (iblk m c 0 t) (iblk m c 1 t) (ix3 (0 : Fin 1) r o)
      = offsetProduct (V m c main_v6) (V m c main_arg1) (((cfg0.win 2).blk t).view.emb (ix3 (0 : Fin 1) r o))
  refine (Body.pay_apply _ _ r o).trans ?_
  refine Finset.sum_congr rfl fun i _ => ?_
  show rowsIn m c (((cfg0.win 0).blk t).view.emb (ix3 (0 : Fin 1) r i)) * weightsIn m c (((cfg0.win 1).blk t).view.emb (ix3 (0 : Fin 1) i o)) = _
  have h0 : ((cfg0.win 0).blk t).view.emb (ix3 (0 : Fin 1) r i)
      = ix3 ((((cfg0.win 2).blk t).view.emb (ix3 (0 : Fin 1) r o)) 0) ((((cfg0.win 2).blk t).view.emb (ix3 (0 : Fin 1) r o)) 1) i := by
    funext a; apply Fin.ext
    match a with
    | ⟨0, _⟩ => show win0_0.index t (0 : Fin 3) * 1 + 1 * 0 = win0_2.index t (0 : Fin 3) * 1 + 1 * 0; omega
    | ⟨1, _⟩ => show win0_0.index t (1 : Fin 3) * 4096 + 1 * r.val = win0_2.index t (1 : Fin 3) * 4096 + 1 * r.val; omega
    | ⟨2, _⟩ => show win0_0.index t (2 : Fin 3) * 32 + 1 * i.val = i.val; omega
  have h1 : ((cfg0.win 1).blk t).view.emb (ix3 (0 : Fin 1) i o)
      = ix3 ((((cfg0.win 2).blk t).view.emb (ix3 (0 : Fin 1) r o)) 0) i ((((cfg0.win 2).blk t).view.emb (ix3 (0 : Fin 1) r o)) 2) := by
    funext a; apply Fin.ext
    match a with
    | ⟨0, _⟩ => show win0_1.index t (0 : Fin 3) * 1 + 1 * 0 = win0_2.index t (0 : Fin 3) * 1 + 1 * 0; omega
    | ⟨1, _⟩ => show win0_1.index t (1 : Fin 3) * 32 + 1 * i.val = i.val; omega
    | ⟨2, _⟩ => show win0_1.index t (2 : Fin 3) * 32 + 1 * o.val = win0_2.index t (2 : Fin 3) * 32 + 1 * o.val; omega
  rw [h0, h1]
  rfl

/-- An index of the contribution array is in point `t`'s block iff each coordinate is in the block's range. -/
theorem mem_block (t : Fin cfg0.N) (i : S27x131072x32.Idx) :
    i ∈ ((cfg0.win 2).blk t).view.set ↔ ∀ a : Fin 3, win0_2.index t a * S1x4096x32.size a ≤ (i a).val ∧ (i a).val < win0_2.index t a * S1x4096x32.size a + S1x4096x32.size a := by
  show i ∈ ((View.whole main_v7).slice (win0_2.rect t)).set ↔ _
  rw [View.set_slice_whole, Rect.mem_set_unit]
  exact Iff.rfl

/-- The blocks tile the array: contribution (offset `k`, pair `p`, channel `o`) is written by point `32·k + p / 4096`. -/
theorem covered (i : S27x131072x32.Idx) : ∃ t : Fin cfg0.N, (cfg0.win 2).flush t = true ∧ i ∈ ((cfg0.win 2).blk t).view.set := by
  have h0 : (i 0).val < 27 := (i 0).isLt
  have h1 : (i 1).val < 131072 := (i 1).isLt
  have h2 : (i 2).val < 32 := (i 2).isLt
  have hN : cfg0.N = 864 := N_0
  refine ⟨⟨(i 0).val * 32 + (i 1).val / 4096, by rw [hN]; omega⟩, flush0_2 _, ?_⟩
  rw [mem_block]
  obtain ⟨e0, e1, e2, -⟩ := block_index ⟨(i 0).val * 32 + (i 1).val / 4096, by rw [hN]; omega⟩
  intro a
  match a with
  | ⟨0, _⟩ => show win0_2.index _ (0 : Fin 3) * 1 ≤ (i 0).val ∧ (i 0).val < win0_2.index _ (0 : Fin 3) * 1 + 1; rw [e0]; show ((i 0).val * 32 + (i 1).val / 4096) / 32 * 1 ≤ _ ∧ _ < ((i 0).val * 32 + (i 1).val / 4096) / 32 * 1 + 1; omega
  | ⟨1, _⟩ => show win0_2.index _ (1 : Fin 3) * 4096 ≤ (i 1).val ∧ (i 1).val < win0_2.index _ (1 : Fin 3) * 4096 + 4096; rw [e1]; show ((i 0).val * 32 + (i 1).val / 4096) % 32 * 4096 ≤ _ ∧ _ < ((i 0).val * 32 + (i 1).val / 4096) % 32 * 4096 + 4096; omega
  | ⟨2, _⟩ => show win0_2.index _ (2 : Fin 3) * 32 ≤ (i 2).val ∧ (i 2).val < win0_2.index _ (2 : Fin 3) * 32 + 32; rw [e2]; omega

/-- THE CONTRIBUTION ARRAY after the region is the per-offset product of the gathered rows and the weights. -/
theorem contributions_eq (c : Dev nD) : (dats m 0 c).arrAt 2 cfg0.N = offsetProduct (V m c main_v6) (V m c main_arg1) :=
  (dats m 0 c).arrAt_eq_of_cover 2 _ (fun t _ => flushed_eq m c t) covered

/-! ## The lines before and after the region -/

/-- The region finds the gathered rows of the launch features at the launch input indices. -/
theorem gathered_eq (c : Dev nD) :
    (V m c main_v6 : S27x131072x32.Idx → EReal) = gatherRows (m ((c : Thread nD τ).loc main_arg0)) (m ((c : Thread nD τ).loc main_arg2)) := by
  show StableHlo.after hostOps0 (fun b => m (c, b)) (Proc.devRef .tc main_v6) = _
  after_results
  rfl

/-- THE RESULT: the scatter-add, at the launch output indices, of the per-offset product of the gathered rows
    and the launch weights. -/
theorem result_eq (c : Dev nD) :
    Pipeline.afterTail₀ cfgs (dats m) 0 (V0 m) [hostOps1] c main_v17
      = scatterRows (m ((c : Thread nD τ).loc main_arg3))
          (offsetProduct (gatherRows (m ((c : Thread nD τ).loc main_arg0)) (m ((c : Thread nD τ).loc main_arg2))) (m ((c : Thread nD τ).loc main_arg1))) := by
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have h7 : Pipeline.withArrays (cfgs 0).spec c (V0 m c) (fun w => (dats m 0 c).arrAt w (cfgs 0).N) (Proc.devRef .tc main_v7)
      = offsetProduct (gatherRows (m ((c : Thread nD τ).loc main_arg0)) (m ((c : Thread nD τ).loc main_arg2))) (m ((c : Thread nD τ).loc main_arg1)) :=
    (Pipeline.withArrays_arr spec0 launch0.win.arr_inj c _ _ 2).trans
      ((contributions_eq m c).trans (by rw [gathered_eq m c, V_main_arg1 m c]))
  unfold Pipeline.afterTail₀
  show StableHlo.after hostOps1 _ (Proc.devRef .tc main_v17) = _
  after_results
  show scatterRows (Pipeline.withArrays (cfgs 0).spec c (V0 m c) (fun w => (dats m 0 c).arrAt w (cfgs 0).N) (Proc.devRef .tc main_arg3))
      (Pipeline.withArrays (cfgs 0).spec c (V0 m c) (fun w => (dats m 0 c).arrAt w (cfgs 0).N) (Proc.devRef .tc main_v7)) = _
  rw [h3, h7]

/-! ## The run, read -/

/-- Every weakly fair execution of the kernel's program terminates with the result at `scatterRows` of the
    product and the four arguments as launched. -/
theorem run : θ_run defs (onTc (τ := τ) (main (F := Ideal))) ⟨m, fun _ => 0, ρ⟩ fun r => ∀ c : Dev nD,
      r.2.mem ((c.tc : Thread nD τ).loc main_v17)
        = scatterRows (m ((c : Thread nD τ).loc main_arg3))
            (offsetProduct (gatherRows (m ((c : Thread nD τ).loc main_arg0)) (m ((c : Thread nD τ).loc main_arg2))) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v17 (Pipeline.mem_restRefs_of main_v17 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.SparseConv.Region

end
-- ==== Proof.RefSide.lean ====
/- The reference's batched `dot_general` (batch axis: the offset; contracted axis: the input channel)
   is the per-offset product of the gathered rows and the weights, index by index. -/
import proofs.«101304_j82669530514090_1_alg».proof.Proof.Gen.ReferenceIdeal.Read
import proofs.«101304_j82669530514090_1_alg».proof.Proof.OffsetProduct

noncomputable section

open scoped BigOperators

namespace Cert.SparseConv.Ref

open Cert.ReferenceIdeal Cert.ReferenceIdeal.Gen Cert.ReferenceIdeal.Read Idealize.ShloMosaic Idealize.ShloMosaic.ValueIdx

/-- The left operand of the contraction at output index `j` and channel `i` is row `(j 0, j 1)` at channel `i`. -/
theorem lidx_eq (j : S27x131072x32.Idx) (i : Fin 32) : lidx_main_v7 j i = ix3 (j 0) (j 1) i :=
  funext fun a => Fin.ext (by match a with | ⟨0, _⟩ => rfl | ⟨1, _⟩ => rfl | ⟨2, _⟩ => rfl)

/-- The right operand there is the weight of offset `j 0` from channel `i` to output channel `j 2`. -/
theorem ridx_eq (j : S27x131072x32.Idx) (i : Fin 32) : ridx_main_v7 j i = ix3 (j 0) i (j 2) :=
  funext fun a => Fin.ext (by match a with | ⟨0, _⟩ => rfl | ⟨1, _⟩ => rfl | ⟨2, _⟩ => rfl)

/-- The reference's contribution array is the per-offset product of its gathered rows and the weights. -/
theorem product_eq (x0 : (⟨S262144x32, .f32⟩ : BufTy).Contents (Elt Ideal)) (x1 : (⟨S27x32x32, .f32⟩ : BufTy).Contents (Elt Ideal))
    (x2 : (⟨S27x131072, .i32⟩ : BufTy).Contents (Elt Ideal)) :
    val_main_v7 (F := Ideal) x0 x1 x2 = offsetProduct (val_main_v6 (F := Ideal) x0 x2) x1 := by
  funext j
  rw [val_main_v7_apply]
  exact Finset.sum_congr rfl fun i _ => by rw [lidx_eq, ridx_eq]; rfl

end Cert.SparseConv.Ref

end
-- ==== Proof.Bridge.lean ====
/- The reference's result is the kernel program's result, as functions of the four argument arrays.

   Both programs gather the same rows with the same lines and scatter-add with the same lines; between
   those the reference takes one batched product over (offset, pair, channel) and the kernel program's
   region leaves the per-offset product of the same two arrays. So the two results are `scatterRows` of
   `offsetProduct` of `gatherRows` of the same arguments. -/
import proofs.«101304_j82669530514090_1_alg».proof.Proof.RefSide
import proofs.«101304_j82669530514090_1_alg».proof.Proof.KernelValue

noncomputable section

namespace Cert.SparseConv.Ref

open Cert.ReferenceIdeal Cert.ReferenceIdeal.Gen Cert.ReferenceIdeal.Read Idealize.ShloMosaic

/-- The reference's result, read one line at a time, is the scatter-add of the per-offset product of the
    gathered rows and the weights. -/
theorem result_eq (x0 : (⟨S262144x32, .f32⟩ : BufTy).Contents (Elt Ideal)) (x1 : (⟨S27x32x32, .f32⟩ : BufTy).Contents (Elt Ideal))
    (x2 x3 : (⟨S27x131072, .i32⟩ : BufTy).Contents (Elt Ideal)) :
    val_main_v17 (F := Ideal) x0 x1 x2 x3
      = Cert.SparseConv.Region.scatterRows x3 (Cert.SparseConv.offsetProduct (Cert.SparseConv.Region.gatherRows x0 x2) x1) := by
  unfold val_main_v17 val_main_v10
  rw [product_eq]
  rfl

end Cert.SparseConv.Ref

end
-- ==== Proof.lean ====
/- A sparse 3-D convolution: for each of 27 kernel offsets, gather the input rows of the offset's
   neighbour pairs, multiply each row by the offset's 32 × 32 weight matrix, and scatter-add the products
   into the output rows.

   The kernel program and the reference gather and scatter-add with the same host lines. They differ only
   in the product: the reference takes ONE batched contraction over the input channel; the kernel program
   tiles the (offset, pair) rows into 27 × 32 blocks of 4096 rows and multiplies each block by its offset's
   matrix into a zero accumulator, in a narrower float format. Over the extended reals a change of format is
   the identity and each output element is the same finite sum `Σ_i g[k, m, i] · w[k, i, o]` on both
   sides (`offsetProduct`), the blocks tiling the array. No law beyond reindexing a finite sum is used, so
   the finiteness precondition is never opened.

   - `OffsetProduct`: the product as one function of its operand arrays.
   - `RefSide`: the reference's batched contraction is that function.
   - `Payload`: the kernel body's stored element is that sum over its blocks.
   - `KernelValue`: the region leaves that function in the contribution array, and the program's result.
   - `Bridge`: the two results are one term.
   The frames of the two kernel programs are the generated ones; the reference's is its generated run. -/
import proofs.«101304_j82669530514090_1_alg».proof.Defs
import proofs.«101304_j82669530514090_1_alg».proof.Proof.Gen.Kernel
import proofs.«101304_j82669530514090_1_alg».proof.Proof.Gen.Kernel.Skeleton
import proofs.«101304_j82669530514090_1_alg».proof.Proof.Gen.Kernel.Launch
import proofs.«101304_j82669530514090_1_alg».proof.Proof.Gen.Kernel.Points
import proofs.«101304_j82669530514090_1_alg».proof.Proof.Gen.Kernel.Frame
import proofs.«101304_j82669530514090_1_alg».proof.Proof.Gen.KernelIdeal
import proofs.«101304_j82669530514090_1_alg».proof.Proof.Gen.KernelIdeal.Skeleton
import proofs.«101304_j82669530514090_1_alg».proof.Proof.Gen.KernelIdeal.Launch
import proofs.«101304_j82669530514090_1_alg».proof.Proof.Gen.KernelIdeal.Points
import proofs.«101304_j82669530514090_1_alg».proof.Proof.Gen.KernelIdeal.Frame
import proofs.«101304_j82669530514090_1_alg».proof.Proof.Gen.ReferenceIdeal
import proofs.«101304_j82669530514090_1_alg».proof.Proof.Gen.ReferenceIdeal.Run
import proofs.«101304_j82669530514090_1_alg».proof.Proof.Gen.ReferenceIdeal.Read
import proofs.«101304_j82669530514090_1_alg».proof.Proof.Gen.Pre_finite_inputs
import proofs.«101304_j82669530514090_1_alg».proof.Proof.KernelValue
import proofs.«101304_j82669530514090_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is straight-line host code: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the four arguments both programs end with the scatter-add of the per-offset
    product of the gathered rows and the weights. -/
theorem algebraic : Cert.algebraic_KernelIdeal_ReferenceIdeal := by
  intro m ρ m' ρ' _ hagree
  refine ⟨_, Cert.SparseConv.Region.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v17_eq _ _ _ _).trans (Cert.SparseConv.Ref.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
